-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S2048x64 : Shape := ⟨2, ![2048, 64]⟩
abbrev S128x8 : Shape := ⟨2, ![128, 8]⟩
abbrev S8 : Shape := ⟨1, ![8]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S1024x64 .f32) (main_arg1 : FVec F S2048x64 .f32) (main_arg2 : FVec F S128x8 .f32) (main_arg3 : FVec F S8 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S1024x64 : Shape := ⟨2, ![1024, 64]⟩
abbrev S2048x64 : Shape := ⟨2, ![2048, 64]⟩
abbrev S128x8 : Shape := ⟨2, ![128, 8]⟩
abbrev S8 : Shape := ⟨1, ![8]⟩
abbrev S64x8 : Shape := ⟨2, ![64, 8]⟩
abbrev S2048x8 : Shape := ⟨2, ![2048, 8]⟩
abbrev S1x16384 : Shape := ⟨2, ![1, 16384]⟩
abbrev S1x8 : Shape := ⟨2, ![1, 8]⟩
abbrev S1024x16384 : Shape := ⟨2, ![1024, 16384]⟩
abbrev S1x1024 : Shape := ⟨2, ![1, 1024]⟩
abbrev S1024x1024 : Shape := ⟨2, ![1024, 1024]⟩
abbrev S1024x8 : Shape := ⟨2, ![1024, 8]⟩
abbrev S1024x2048x8 : Shape := ⟨3, ![1024, 2048, 8]⟩

abbrev nBuf : Space → Nat
  | .hbm => 11
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S2048x64, .f32⟩
  | .hbm, ⟨2, _⟩ => ⟨S128x8, .f32⟩
  | .hbm, ⟨3, _⟩ => ⟨S8, .f32⟩
  | .hbm, ⟨4, _⟩ => ⟨S64x8, .f32⟩
  | .hbm, ⟨5, _⟩ => ⟨S64x8, .f32⟩
  | .hbm, ⟨6, _⟩ => ⟨S2048x8, .f32⟩
  | .hbm, ⟨7, _⟩ => ⟨S1x16384, .f32⟩
  | .hbm, ⟨8, _⟩ => ⟨S1x8, .f32⟩
  | .hbm, ⟨9, _⟩ => ⟨S1024x16384, .f32⟩
  | .hbm, ⟨10, _⟩ => ⟨S1024x2048x8, .f32⟩
  | .local _ .vmem, ⟨0, _⟩ => ⟨S1024x64, .f32⟩
  | .local _ .vmem, ⟨1, _⟩ => ⟨S64x8, .f32⟩
  | .local _ .vmem, ⟨2, _⟩ => ⟨S1x8, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S128x8_S64x8_0_0 : S128x8.Slices ![0, 0] S64x8
  slices_S128x8_S64x8_64_0 : S128x8.Slices ![64, 0] S64x8
  shapeCasts_S2048x8_S1x16384 : S2048x8.ShapeCasts S1x16384
  shapeCasts_S8_S1x8 : S8.ShapeCasts S1x8
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  concatenates_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x8_S1024x1024_d1 : Shape.Concatenates (S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: S1024x8 :: []) S1024x1024 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x16384_S1024x2048x8 : S1024x16384.ShapeCasts S1024x2048x8
  dot_S2048x64_S64x8_S2048x8_1_0_0_1_n_n_wf : DotDims.WF S2048x64 S64x8 S2048x8 [1] [0] [0] [1] [] []
  dot_S1024x64_S64x8_S1024x8_1_0_0_1_n_n_wf : DotDims.WF S1024x64 S64x8 S1024x8 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8.size a ≤ S64x8.size a
  hwx0_1 : ∀ i : grid0.Coords, EltTy.bits .f32 = 32 ∨ (Rect.block (s := S64x8) S64x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x16384.size a
  hwx0_4 : ∀ i : grid0.Coords, EltTy.bits .f32 = 32 ∨ (Rect.block (s := S1024x16384) S1024x1024.size (cc0_transform_4 i) (hinb0_4 i)).WholeWords (EltTy.packing .f32)

variable [Facts₀]

def dot_S2048x64_S64x8_S2048x8_1_0_0_1_n_n : DotDims S2048x64 S64x8 S2048x8 where
  lhsContracting := [1]
  rhsContracting := [0]
  lhsNonContracting := [0]
  rhsNonContracting := [1]
  lhsBatch := []
  rhsBatch := []
  wf := dot_S2048x64_S64x8_S2048x8_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x64 : Shape := ⟨2, ![1024, 64]⟩
abbrev S2048x64 : Shape := ⟨2, ![2048, 64]⟩
abbrev S128x8 : Shape := ⟨2, ![128, 8]⟩
abbrev S8 : Shape := ⟨1, ![8]⟩
abbrev S64x8 : Shape := ⟨2, ![64, 8]⟩
abbrev S1024x8 : Shape := ⟨2, ![1024, 8]⟩
abbrev S2048x8 : Shape := ⟨2, ![2048, 8]⟩
abbrev S1024x1x8 : Shape := ⟨3, ![1024, 1, 8]⟩
abbrev S1x2048x8 : Shape := ⟨3, ![1, 2048, 8]⟩
abbrev S1024x2048x8 : Shape := ⟨3, ![1024, 2048, 8]⟩
abbrev S1x1x8 : Shape := ⟨3, ![1, 1, 8]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S2048x64, .f32⟩
  | .hbm, ⟨2, _⟩ => ⟨S128x8, .f32⟩
  | .hbm, ⟨3, _⟩ => ⟨S8, .f32⟩
  | .hbm, ⟨4, _⟩ => ⟨S64x8, .f32⟩
  | .hbm, ⟨5, _⟩ => ⟨S64x8, .f32⟩
  | .hbm, ⟨6, _⟩ => ⟨S1024x8, .f32⟩
  | .hbm, ⟨7, _⟩ => ⟨S2048x8, .f32⟩
  | .hbm, ⟨8, _⟩ => ⟨S1024x1x8, .f32⟩
  | .hbm, ⟨9, _⟩ => ⟨S1x2048x8, .f32⟩
  | .hbm, ⟨10, _⟩ => ⟨S1024x2048x8, .f32⟩
  | .hbm, ⟨11, _⟩ => ⟨S1024x2048x8, .f32⟩
  | .hbm, ⟨12, _⟩ => ⟨S1024x2048x8, .f32⟩
  | .hbm, ⟨13, _⟩ => ⟨S1x1x8, .f32⟩
  | .hbm, ⟨14, _⟩ => ⟨S1024x2048x8, .f32⟩
  | .hbm, ⟨15, _⟩ => ⟨S1024x2048x8, .f32⟩
  | .hbm, ⟨16, _⟩ => ⟨S_, .f32⟩
  | .hbm, ⟨17, _⟩ => ⟨S1024x2048x8, .f32⟩
  | .hbm, ⟨18, _⟩ => ⟨S1024x2048x8, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S128x8_S64x8_0_0 : S128x8.Slices ![0, 0] S64x8
  slices_S128x8_S64x8_64_0 : S128x8.Slices ![64, 0] S64x8
  bcast_S1024x8_S1024x1x8_0_2 : S1024x8.BroadcastsInDim S1024x1x8 (![0, 2] : Fin 2 → Fin S1024x1x8.rank)
  bcast_S2048x8_S1x2048x8_1_2 : S2048x8.BroadcastsInDim S1x2048x8 (![1, 2] : Fin 2 → Fin S1x2048x8.rank)
  bcast_S1024x1x8_S1024x2048x8_0_1_2 : S1024x1x8.BroadcastsInDim S1024x2048x8 (![0, 1, 2] : Fin 3 → Fin S1024x2048x8.rank)
  bcast_S1x2048x8_S1024x2048x8_0_1_2 : S1x2048x8.BroadcastsInDim S1024x2048x8 (![0, 1, 2] : Fin 3 → Fin S1024x2048x8.rank)
  bcast_S8_S1x1x8_2 : S8.BroadcastsInDim S1x1x8 (![2] : Fin 1 → Fin S1x1x8.rank)
  bcast_S1x1x8_S1024x2048x8_0_1_2 : S1x1x8.BroadcastsInDim S1024x2048x8 (![0, 1, 2] : Fin 3 → Fin S1024x2048x8.rank)
  bcast_S_S1024x2048x8 : S_.BroadcastsInDim S1024x2048x8 (![] : Fin 0 → Fin S1024x2048x8.rank)
  dot_S1024x64_S64x8_S1024x8_1_0_0_1_n_n_wf : DotDims.WF S1024x64 S64x8 S1024x8 [1] [0] [0] [1] [] []
  dot_S2048x64_S64x8_S2048x8_1_0_0_1_n_n_wf : DotDims.WF S2048x64 S64x8 S2048x8 [1] [0] [0] [1] [] []

variable [Facts₀]

def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S2048x64_S64x8_S2048x8_1_0_0_1_n_n : DotDims S2048x64 S64x8 S2048x8 where
  lhsContracting := [1]
  rhsContracting := [0]
  lhsNonContracting := [0]
  rhsNonContracting := [1]
  lhsBatch := []
  rhsBatch := []
  wf := dot_S2048x64_S64x8_S2048x8_1_0_0_1_n_n_wf

class Facts : Prop extends Facts₀ where

variable [Facts]
-- ==== Proof.Spec.lean ====
import Idealize.ShloMosaic.PureOps.Ideal
import Idealize.ShloMosaic.Lib.ValueIdx

/-!
  The function both programs compute, over the extended reals.

  Inputs: z of shape [1024, 64], x of shape [2048, 64], a weight W of shape [128, 8] whose rows 0..63 multiply z and
  whose rows 64..127 multiply x, and a bias of 8 entries. The result has shape [1024, 2048, 8] and its entry (b, n, h) is

      max ( Σ_k z(b,k)·W(k,h)  +  Σ_k x(n,k)·W(64+k,h)  +  bias(h) ,  0 ).

  The kernel forms the same three summands in another order, ((z-term + bias) + x-term), and lays the last two axes out
  flat: column j = 8·n + h of a [1024, 16384] array. Addition on the extended reals is commutative and associative at
  every value, the infinities included, so the two orders agree with no finiteness assumption; the flat layout is a
  relabelling of indices (h = j mod 8, n = j div 8).
-/

open scoped BigOperators

noncomputable section

namespace Cert.Spec

open Idealize.ShloMosaic Idealize.ShloMosaic.ValueIdx

/-- The lower bound of the final clamp: the f32 word of +0, read at the ideal values. -/
abbrev zeroWord : EReal := Ideal.ofBits .f32 0x00000000#32

/-- Row b of z against column h of the upper half of W. -/
def zTerm (z : (⟨2, ![1024, 64]⟩ : Shape).Idx → EReal) (W : (⟨2, ![128, 8]⟩ : Shape).Idx → EReal)
    (b : Fin 1024) (h : Fin 8) : EReal :=
  ∑ k : Fin 64, z (ix2 b k) * W (ix2 (⟨k.val, by have := k.isLt; omega⟩ : Fin 128) h)

/-- Row n of x against column h of the lower half of W. -/
def xTerm (x : (⟨2, ![2048, 64]⟩ : Shape).Idx → EReal) (W : (⟨2, ![128, 8]⟩ : Shape).Idx → EReal)
    (n : Fin 2048) (h : Fin 8) : EReal :=
  ∑ k : Fin 64, x (ix2 n k) * W (ix2 (⟨64 + k.val, by have := k.isLt; omega⟩ : Fin 128) h)

/-- The result at (b, n, h), the three summands in the reference's order. -/
def outAt (z : (⟨2, ![1024, 64]⟩ : Shape).Idx → EReal) (x : (⟨2, ![2048, 64]⟩ : Shape).Idx → EReal)
    (W : (⟨2, ![128, 8]⟩ : Shape).Idx → EReal) (bias : (⟨1, ![8]⟩ : Shape).Idx → EReal)
    (b : Fin 1024) (n : Fin 2048) (h : Fin 8) : EReal :=
  max (zTerm z W b h + xTerm x W n h + bias (ix1 h)) zeroWord

/-- The whole result array. -/
def out (z : (⟨2, ![1024, 64]⟩ : Shape).Idx → EReal) (x : (⟨2, ![2048, 64]⟩ : Shape).Idx → EReal)
    (W : (⟨2, ![128, 8]⟩ : Shape).Idx → EReal) (bias : (⟨1, ![8]⟩ : Shape).Idx → EReal) :
    (⟨3, ![1024, 2048, 8]⟩ : Shape).Idx → EReal :=
  fun i => outAt z x W bias (i 0) (i 1) (i 2)

/-- The position of a flat column inside its group of eight. -/
def lane {N : Nat} (q : Fin N) : Fin 8 := ⟨q.val % 8, Nat.mod_lt _ (by decide)⟩

/-- The group of eight a flat column of the [1024, 16384] layout belongs to. -/
def group (q : Fin 16384) : Fin 2048 := ⟨q.val / 8, by have := q.isLt; omega⟩

/-- The flat layout's entry (b, j), the three summands in the kernel's order. -/
def flatAt (z : (⟨2, ![1024, 64]⟩ : Shape).Idx → EReal) (x : (⟨2, ![2048, 64]⟩ : Shape).Idx → EReal)
    (W : (⟨2, ![128, 8]⟩ : Shape).Idx → EReal) (bias : (⟨1, ![8]⟩ : Shape).Idx → EReal)
    (b : Fin 1024) (q : Fin 16384) : EReal :=
  max ((zTerm z W b (lane q) + bias (ix1 (lane q))) + xTerm x W (group q) (lane q)) zeroWord

/-- The whole flat array. -/
def flat (z : (⟨2, ![1024, 64]⟩ : Shape).Idx → EReal) (x : (⟨2, ![2048, 64]⟩ : Shape).Idx → EReal)
    (W : (⟨2, ![128, 8]⟩ : Shape).Idx → EReal) (bias : (⟨1, ![8]⟩ : Shape).Idx → EReal) :
    (⟨2, ![1024, 16384]⟩ : Shape).Idx → EReal :=
  fun j => flatAt z x W bias (j 0) (j 1)

/-- The flat entry at column 8·n + h is the result at (b, n, h): the column's lane is h, its group is n, and the
    three summands commute. -/
theorem flatAt_eq_outAt (z : (⟨2, ![1024, 64]⟩ : Shape).Idx → EReal) (x : (⟨2, ![2048, 64]⟩ : Shape).Idx → EReal)
    (W : (⟨2, ![128, 8]⟩ : Shape).Idx → EReal) (bias : (⟨1, ![8]⟩ : Shape).Idx → EReal)
    (b : Fin 1024) (n : Fin 2048) (h : Fin 8) (q : Fin 16384) (hq : q.val = n.val * 8 + h.val) :
    flatAt z x W bias b q = outAt z x W bias b n h := by
  have hh := h.isLt
  have e1 : lane q = h := Fin.ext (by show q.val % 8 = h.val; omega)
  have e2 : group q = n := Fin.ext (by show q.val / 8 = n.val; omega)
  unfold flatAt outAt
  rw [e1, e2, add_right_comm]

end Cert.Spec

end
-- ==== Proof.RefValue.lean ====
import proofs.«170823_j12541304504451_1_alg».proof.Proof.Gen.ReferenceIdeal.Run
import proofs.«170823_j12541304504451_1_alg».proof.Proof.Gen.ReferenceIdeal.Read
import proofs.«170823_j12541304504451_1_alg».proof.Proof.Spec

/-!
  The reference's result is the specification.

  The reference multiplies z by the upper half of W and x by the lower half (two slices of W, two matrix products),
  gives the first product a unit middle axis and the second a unit leading axis, broadcasts both and the bias to
  [1024, 2048, 8], adds them as (z-term + x-term) + bias, and takes the maximum with a broadcast zero. Read at an index
  (b, n, h), each broadcast drops the coordinates it added, each slice shifts its row coordinate by its offset, and
  each product is the sum over the 64 contracted positions: exactly Spec.outAt.
-/

open scoped BigOperators

noncomputable section

namespace Cert.ReferenceIdeal.RefValue

open Cert.ReferenceIdeal Cert.ReferenceIdeal.Gen Cert.ReferenceIdeal.Read
open Idealize.ShloMosaic Idealize.ShloMosaic.ValueIdx

/-- The z-side product's left operand index at (b, n, h), contracted position k: row b, column k of z. -/
theorem lidx_z (b : Fin 1024) (n : Fin 2048) (h : Fin 8) (k : Fin 64) :
    lidx_main_v2 (idx_main_v4 (idx_main_v6 (ix3 b n h))) k = ix2 b k :=
  funext fun a => Fin.ext (by match a with | ⟨0, _⟩ => rfl | ⟨1, _⟩ => rfl)

/-- Its right operand index, through the slice of W's rows 0..63: row k, column h of W. -/
theorem ridx_z (b : Fin 1024) (n : Fin 2048) (h : Fin 8) (k : Fin 64) :
    idx_main_v0 (ridx_main_v2 (idx_main_v4 (idx_main_v6 (ix3 b n h))) k)
      = ix2 (⟨k.val, by have := k.isLt; omega⟩ : Fin 128) h :=
  funext fun a => Fin.ext (by match a with | ⟨0, _⟩ => rfl | ⟨1, _⟩ => rfl)

/-- The x-side product's left operand index: row n, column k of x. -/
theorem lidx_x (b : Fin 1024) (n : Fin 2048) (h : Fin 8) (k : Fin 64) :
    lidx_main_v3 (idx_main_v5 (idx_main_v7 (ix3 b n h))) k = ix2 n k :=
  funext fun a => Fin.ext (by match a with | ⟨0, _⟩ => rfl | ⟨1, _⟩ => rfl)

/-- Its right operand index, through the slice of W's rows 64..127: row 64 + k, column h of W. -/
theorem ridx_x (b : Fin 1024) (n : Fin 2048) (h : Fin 8) (k : Fin 64) :
    idx_main_v1 (ridx_main_v3 (idx_main_v5 (idx_main_v7 (ix3 b n h))) k)
      = ix2 (⟨64 + k.val, by have := k.isLt; omega⟩ : Fin 128) h :=
  funext fun a => Fin.ext (by match a with | ⟨0, _⟩ => rfl | ⟨1, _⟩ => rfl)

/-- The bias index: entry h. -/
theorem idx_bias (b : Fin 1024) (n : Fin 2048) (h : Fin 8) :
    idx_main_v9 (idx_main_v10 (ix3 b n h)) = ix1 h :=
  funext fun a => Fin.ext (by match a with | ⟨0, _⟩ => rfl)

/-- The reference's last stage, index by index, is the specification. -/
theorem result_eq (x0 : (⟨S1024x64, .f32⟩ : BufTy).Contents (Elt Ideal)) (x1 : (⟨S2048x64, .f32⟩ : BufTy).Contents (Elt Ideal))
    (x2 : (⟨S128x8, .f32⟩ : BufTy).Contents (Elt Ideal)) (x3 : (⟨S8, .f32⟩ : BufTy).Contents (Elt Ideal)) :
    val_main_v12 (F := Ideal) x0 x1 x2 x3 = Cert.Spec.out x0 x1 x2 x3 := by
  funext i
  obtain ⟨b, n, h, rfl⟩ : ∃ (b : Fin 1024) (n : Fin 2048) (h : Fin 8), i = ix3 b n h := ⟨i 0, i 1, i 2, eq_ix3 i⟩
  rw [val_main_v12_apply, val_main_v11_apply, val_main_v8_apply, val_main_v6_apply, val_main_v4_apply,
    val_main_v2_apply, val_main_v7_apply, val_main_v5_apply, val_main_v3_apply, val_main_v10_apply, val_main_v9_apply,
    val_main_call0_v0_apply, val_main_call0_cst_apply]
  simp only [val_main_v0_apply, val_main_v1_apply, lidx_z, ridx_z, lidx_x, ridx_x, idx_bias]
  rfl

end Cert.ReferenceIdeal.RefValue

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelPayload.lean ====
import proofs.«170823_j12541304504451_1_alg».proof.Proof.Gen.KernelIdeal.Skeleton
import proofs.«170823_j12541304504451_1_alg».proof.Proof.LibPlainDot
import proofs.«170823_j12541304504451_1_alg».proof.Proof.Spec
import Idealize.ShloMosaic.Lib.Pipeline.Value
import Idealize.ShloMosaic.Lib.ValueLayout
import Idealize.ShloMosaic.Lib.ValueIdx
import Idealize.ShloMosaic.PureOps.Ideal.Laws

/-!
  The value the kernel body stores, read at one entry.

  At a grid point the body loads a [1024, 64] block of z, the [64, 8] upper half of W, the bias as one row [1, 8] and
  one [1, 1024] stretch of the flattened x-product, and stores a [1024, 1024] tile. It multiplies the z block by the
  weight block into a zero accumulator (a [1024, 8] product), adds the bias row to every row, lays 128 copies of that
  [1024, 8] array side by side along the columns, adds the loaded stretch to every row, and takes the maximum with zero.
  At the ideal values the changes of float format are the identity, so the tile's entry (p, q) is

      max ( ( Σ_k zblk(p,k)·wblk(k, q mod 8) + bias(0, q mod 8) ) + stretch(0, q) , 0 ).
-/

open scoped BigOperators

noncomputable section

namespace Cert.KernelIdeal.Body

open Cert.KernelIdeal Cert.KernelIdeal.Gen
open Idealize.ShloMosaic Idealize.ShloMosaic.ValueIdx

/-- 128 copies of one [1024, 8] array laid side by side along the columns, read at (p, q): the one array at
    (p, q mod 8), whichever copy column q falls in. -/
theorem tile_apply (y : (⟨2, ![1024, 8]⟩ : Shape).Idx → EReal)
    (h : Shape.Concatenates ((List.replicate 128 (⟨⟨2, ![1024, 8]⟩, y⟩ : (s : Shape) × (s.Idx → EReal))).map (·.1))
      ⟨2, ![1024, 1024]⟩ (1 : Fin 2))
    (p q : Fin 1024) :
    concatenate ⟨2, ![1024, 1024]⟩ (1 : Fin 2) (List.replicate 128 (⟨⟨2, ![1024, 8]⟩, y⟩ : (s : Shape) × (s.Idx → EReal))) h (ix2 p q)
      = y (ix2 p (Cert.Spec.lane q)) :=
  concatenate_replicate_apply (t := ⟨2, ![1024, 1024]⟩) (s₁ := ⟨2, ![1024, 8]⟩) (1 : Fin 2) 128 y h rfl (ix2 p q) (ix2 p (Cert.Spec.lane q)) rfl
    (fun b hb => by
      match b with
      | ⟨0, _⟩ => rfl
      | ⟨1, _⟩ => exact absurd (Fin.ext rfl) hb)

/-- The stored tile at (p, q). -/
theorem pay_apply (v0 : Vec Ideal S1024x64 .f32) (v2 : Vec Ideal S64x8 .f32) (v6 : Vec Ideal S1x8 .f32)
    (v11 : Vec Ideal S1x1024 .f32) (p q : Fin 1024) :
    k0_pay1 (F := Ideal) v0 v2 v6 v11 (ix2 p q)
      = max (((∑ k : Fin 64, v0 (ix2 p k) * v2 (ix2 k (Cert.Spec.lane q))) + v6 (ix2 (0 : Fin 1) (Cert.Spec.lane q)))
          + v11 (ix2 (0 : Fin 1) q)) Cert.Spec.zeroWord := by
  unfold k0_pay1
  refine congrArg₂ max (congrArg₂ (· + ·) ?_ ?_) rfl
  · refine (tile_apply _ _ p q).trans ?_
    refine congrArg₂ (· + ·) ?_ ?_
    · refine (Cert.Lib.PlainDot.matmul_zero_apply _ rfl rfl rfl rfl rfl rfl none _ _ p (Cert.Spec.lane q)).trans ?_
      refine Finset.sum_congr rfl fun k _ => ?_
      exact congrArg (v0 (ix2 p k) * ·) (congrFun (shapeCast_self v2 _) _)
    · refine (broadcastTo_1b_ab_apply _ _ p (Cert.Spec.lane q)).trans ?_
      exact congrFun (shapeCast_self v6 _) _
  · refine (broadcastTo_1b_ab_apply _ _ p q).trans ?_
    exact congrFun (shapeCast_self v11 _) _

end Cert.KernelIdeal.Body

end
-- ==== Proof.KernelValue.lean ====
import proofs.«170823_j12541304504451_1_alg».proof.Proof.Gen.KernelIdeal.Frame
import proofs.«170823_j12541304504451_1_alg».proof.Proof.KernelPayload
import proofs.«170823_j12541304504451_1_alg».proof.Proof.LibPlainDot
import proofs.«170823_j12541304504451_1_alg».proof.Proof.Spec
import Idealize.ShloMosaic.Lib.Pipeline.Value
import Idealize.ShloMosaic.Lib.ValueIdx
import Idealize.ShloMosaic.Lib.StableHlo.Run
import Idealize.ShloMosaic.PureOps.Ideal.Laws

/-!
  What the kernel program leaves in its result, at the ideal values.

  Before the kernel region the host slices W into its upper and lower halves, multiplies x by the lower half, flattens
  that [2048, 8] product to one row [1, 16384] (entry (n, h) at column 8·n + h) and views the bias as one row [1, 8].
  The region runs 16 grid points; point g loads z whole, the upper half of W whole, the bias row whole and columns
  1024·g .. 1024·g + 1023 of the flattened product, and writes columns 1024·g .. 1024·g + 1023 of a [1024, 16384]
  array. After the region the host regroups that array's columns in eights: entry (b, n, h) is column 8·n + h of row b.

  So the written block of point g is the restriction of ONE function of the arguments (Spec.flat) to the block's
  columns — 1024 is a multiple of 8, so a column's position inside its group of eight is the same counted in the
  block or in the whole row —, the 16 blocks cover every column, and the regrouped array is Spec.out.
-/

set_option maxRecDepth 16384

open scoped BigOperators

noncomputable section

namespace Cert.KernelIdeal.KValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The arrays the host writes before the region -/

/-- The upper half of W, as the region finds it. -/
theorem V_wz (c : Dev nD) :
    (V m c main_v0 : S64x8.Idx → EReal)
      = extractStridedSlice S64x8 ![0, 0] (m ((c : Thread nD τ).loc main_arg2)) slices_S128x8_S64x8_0_0 := by
  show StableHlo.after hostOps0 (fun b => m (c, b)) (Proc.devRef .tc main_v0) = _
  after_results

/-- The bias as one row. -/
theorem V_bias (c : Dev nD) :
    (V m c main_v4 : S1x8.Idx → EReal)
      = shapeCast S1x8 (m ((c : Thread nD τ).loc main_arg3)) shapeCasts_S8_S1x8 := by
  show StableHlo.after hostOps0 (fun b => m (c, b)) (Proc.devRef .tc main_v4) = _
  after_results
  rfl

/-- The x-side product, flattened to one row. -/
theorem V_xflat (c : Dev nD) :
    (V m c main_v3 : S1x16384.Idx → EReal)
      = shapeCast S1x16384 (Host.dotGeneral (F := Ideal) (φ₁ := .f32) (φ₂ := .f32) dot_S2048x64_S64x8_S2048x8_1_0_0_1_n_n none
          (m ((c : Thread nD τ).loc main_arg1) : S2048x64.Idx → EReal)
          (extractStridedSlice S64x8 ![64, 0] (m ((c : Thread nD τ).loc main_arg2) : S128x8.Idx → EReal) slices_S128x8_S64x8_64_0))
          shapeCasts_S2048x8_S1x16384 := by
  show StableHlo.after hostOps0 (fun b => m (c, b)) (Proc.devRef .tc main_v3) = _
  after_results
  rfl

/-! ## The index maps, decided over the 16 grid points -/

/-- z, the weight half and the bias row are one block each, at block index (0, 0) at every point; the flattened
    product and the result are cut along the columns, point t at block index (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- There are 16 points. -/
theorem lt16 (t : Fin cfg0.N) : t.val < 16 := lt_of_lt_of_eq t.isLt N_0

/-- Column q of point t's block is column 1024·t + q of the whole row. -/
def col (t : Fin cfg0.N) (q : Fin 1024) : Fin 16384 :=
  ⟨t.val * 1024 + q.val, by have := lt16 t; have := q.isLt; omega⟩

/-- A block starts at a multiple of 8, so a column's place in its group of eight is the same in the block and in the row. -/
theorem lane_col (t : Fin cfg0.N) (q : Fin 1024) : Cert.Spec.lane (col t q) = Cert.Spec.lane q :=
  Fin.ext (by show (t.val * 1024 + q.val) % 8 = q.val % 8; omega)

/-! ## The loaded blocks, read at an entry -/

/-- The blocks the body loads at point t, at their literal shapes. -/
abbrev zblk (c : Dev nD) (t : Fin cfg0.N) : Vec Ideal S1024x64 .f32 := iblk m c 0 t
abbrev wblk (c : Dev nD) (t : Fin cfg0.N) : Vec Ideal S64x8 .f32 := iblk m c 1 t
abbrev bblk (c : Dev nD) (t : Fin cfg0.N) : Vec Ideal S1x8 .f32 := iblk m c 2 t
abbrev sblk (c : Dev nD) (t : Fin cfg0.N) : Vec Ideal S1x1024 .f32 := iblk m c 3 t

/-- The z block is z. -/
theorem zblk_apply (c : Dev nD) (t : Fin cfg0.N) (p : Fin 1024) (k : Fin 64) :
    zblk m c t (ix2 p k) = m ((c : Thread nD τ).loc main_arg0) (ix2 p k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = p.val; omega
  | ⟨1, _⟩ => show win0_0.index t (1 : Fin 2) * 64 + 1 * k.val = k.val; omega

/-- The weight block is rows 0..63 of W. -/
theorem wblk_apply (c : Dev nD) (t : Fin cfg0.N) (k : Fin 64) (r : Fin 8) :
    wblk m c t (ix2 k r) = m ((c : Thread nD τ).loc main_arg2) (ix2 (⟨k.val, by have := k.isLt; omega⟩ : Fin 128) r) := by
  obtain ⟨-, -, e0, e1, -⟩ := idx_facts t
  show V m c main_v0 (((cfg0.win 1).blk t).view.emb (ix2 k r)) = _
  rw [V_wz]
  refine extractStridedSlice_apply ![0, 0] (m ((c : Thread nD τ).loc main_arg2) : S128x8.Idx → EReal) slices_S128x8_S64x8_0_0 _ _ (fun a => ?_)
  match a with
  | ⟨0, _⟩ => show k.val = 0 + (win0_1.index t (0 : Fin 2) * 64 + 1 * k.val); omega
  | ⟨1, _⟩ => show r.val = 0 + (win0_1.index t (1 : Fin 2) * 8 + 1 * r.val); omega

/-- The bias row is the bias. -/
theorem bblk_apply (c : Dev nD) (t : Fin cfg0.N) (r : Fin 8) :
    bblk m c t (ix2 (0 : Fin 1) r) = m ((c : Thread nD τ).loc main_arg3) (ix1 r) := by
  obtain ⟨-, -, -, -, e0, e1, -⟩ := idx_facts t
  show V m c main_v4 (((cfg0.win 2).blk t).view.emb (ix2 (0 : Fin 1) r)) = _
  rw [V_bias]
  have he : ((cfg0.win 2).blk t).view.emb (ix2 (0 : Fin 1) r) = ix2 (0 : Fin 1) r := by
    funext a; apply Fin.ext
    match a with
    | ⟨0, _⟩ => show win0_2.index t (0 : Fin 2) * 1 + 1 * 0 = 0; omega
    | ⟨1, _⟩ => show win0_2.index t (1 : Fin 2) * 8 + 1 * r.val = r.val; omega
  rw [he]
  exact shapeCast_a_1a_apply _ _ (0 : Fin 1) r

/-- The flattened x-side product at column Q: the product at row Q div 8, column Q mod 8, which is the x-term. -/
theorem xflat_apply (x : S2048x64.Idx → EReal) (W : S128x8.Idx → EReal) (Q : Fin 16384) :
    shapeCast S1x16384 (Host.dotGeneral (F := Ideal) (φ₁ := .f32) (φ₂ := .f32) dot_S2048x64_S64x8_S2048x8_1_0_0_1_n_n none x
        (extractStridedSlice S64x8 ![64, 0] W slices_S128x8_S64x8_64_0)) shapeCasts_S2048x8_S1x16384 (ix2 (0 : Fin 1) Q)
      = Cert.Spec.xTerm x W (Cert.Spec.group Q) (Cert.Spec.lane Q) := by
  refine (shapeCast_apply _ _ (ix2 (0 : Fin 1) Q) (ix2 (Cert.Spec.group Q) (Cert.Spec.lane Q)) ?_).trans ?_
  · rw [Shape.rowMajor_val_two, Shape.rowMajor_val_two]
    show Q.val / 8 * 8 + Q.val % 8 = 0 * 16384 + Q.val
    omega
  · refine (Cert.Lib.PlainDot.dotGeneral_apply _ rfl rfl rfl rfl rfl rfl none _ x _ (Cert.Spec.group Q) (Cert.Spec.lane Q)).trans ?_
    unfold Cert.Spec.xTerm
    refine Finset.sum_congr rfl fun k _ => ?_
    refine congrArg (x (ix2 (Cert.Spec.group Q) k) * ·) ?_
    refine extractStridedSlice_apply ![64, 0] W slices_S128x8_S64x8_64_0 _ _ (fun a => ?_)
    match a with
    | ⟨0, _⟩ => rfl
    | ⟨1, _⟩ => show (Cert.Spec.lane Q).val = 0 + (Cert.Spec.lane Q).val; omega

/-- The loaded stretch of the flattened product, at column q of point t's block. -/
theorem sblk_apply (c : Dev nD) (t : Fin cfg0.N) (q : Fin 1024) :
    sblk m c t (ix2 (0 : Fin 1) q)
      = Cert.Spec.xTerm (m ((c : Thread nD τ).loc main_arg1)) (m ((c : Thread nD τ).loc main_arg2))
          (Cert.Spec.group (col t q)) (Cert.Spec.lane (col t q)) := by
  obtain ⟨-, -, -, -, -, -, e0, e1, -⟩ := idx_facts t
  show V m c main_v3 (((cfg0.win 3).blk t).view.emb (ix2 (0 : Fin 1) q)) = _
  rw [V_xflat]
  have he : ((cfg0.win 3).blk t).view.emb (ix2 (0 : Fin 1) q) = ix2 (0 : Fin 1) (col t q) := by
    funext a; apply Fin.ext
    match a with
    | ⟨0, _⟩ => show win0_3.index t (0 : Fin 2) * 1 + 1 * 0 = 0; omega
    | ⟨1, _⟩ => show win0_3.index t (1 : Fin 2) * 1024 + 1 * q.val = t.val * 1024 + q.val; omega
  rw [he]
  exact xflat_apply _ _ _

/-! ## The written block is a block of one function -/

theorem hz : (![0, 0] : Fin 2 → Nat) = fun _ => 0 := funext fun a => by fin_cases a <;> rfl

/-- The flat result as a function of the argument arrays as launched. -/
abbrev flatOf (c : Dev nD) : S1024x16384.Idx → EReal :=
  Cert.Spec.flat (m ((c : Thread nD τ).loc main_arg0)) (m ((c : Thread nD τ).loc main_arg1))
    (m ((c : Thread nD τ).loc main_arg2)) (m ((c : Thread nD τ).loc main_arg3))

/-- Entry (p, q) of point t's result block is entry (p, 1024·t + q) of the array. -/
theorem oemb (t : Fin cfg0.N) (p q : Fin 1024) :
    ((cfg0.win 4).blk t).view.emb (ix2 p q) = ix2 p (col t q) := by
  obtain ⟨-, -, -, -, -, -, -, -, e0, e1⟩ := idx_facts t
  funext a; apply Fin.ext
  match a with
  | ⟨0, _⟩ => show win0_4.index t (0 : Fin 2) * 1024 + 1 * p.val = p.val; omega
  | ⟨1, _⟩ => show win0_4.index t (1 : Fin 2) * 1024 + 1 * q.val = t.val * 1024 + q.val; omega

/-- What point t writes back is the flat function read through the point's block. -/
theorem flushed_eq (c : Dev nD) (t : Fin cfg0.N) :
    (dats m 0 c).flushed 4 t = ((cfg0.win 4).blk t).view.read (Elt Ideal) (flatOf m c) := by
  show (cfg0.win 4).cut (grid0.coords t) ((dats m 0 c).after 4 t) = _
  rw [after0_4]
  unfold out0_4
  rw [View.canon_unit_zero hz]
  simp only [View.ld_unit_zero (S := S1024x64) hz, View.ld_unit_zero (S := S64x8) hz,
    View.ld_unit_zero (S := S1x8) hz, View.ld_unit_zero (S := S1x1024) hz]
  funext j
  obtain ⟨p, q, rfl⟩ : ∃ (p q : Fin 1024), j = ix2 p q := ⟨j 0, j 1, eq_ix2 j⟩
  refine (Cert.KernelIdeal.Body.pay_apply (zblk m c t) (wblk m c t) (bblk m c t) (sblk m c t) p q).trans ?_
  show _ = flatOf m c (((cfg0.win 4).blk t).view.emb (ix2 p q))
  rw [oemb]
  show _ = Cert.Spec.flatAt _ _ _ _ p (col t q)
  unfold Cert.Spec.flatAt Cert.Spec.zTerm
  rw [sblk_apply, bblk_apply, lane_col]
  simp only [zblk_apply, wblk_apply]

/-! ## The 16 blocks cover the array -/

theorem mem_blk (t : Fin cfg0.N) (i : S1024x16384.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v5).slice (win0_4.rect t)).set ↔ _
  rw [View.set_slice_whole, Rect.mem_set_unit]
  exact Iff.rfl

/-- Column j lies in the block of point j div 1024. -/
theorem cover (i : S1024x16384.Idx) :
    ∃ t : Fin cfg0.N, (cfg0.win 4).flush t = true ∧ i ∈ ((cfg0.win 4).blk t).view.set := by
  have hi0 : (i 0).val < 1024 := (i 0).isLt
  have hi1 : (i 1).val < 16384 := (i 1).isLt
  have hN : (i 1).val / 1024 < cfg0.N := by
    have : (i 1).val / 1024 < 16 := by omega
    exact lt_of_lt_of_eq this N_0.symm
  obtain ⟨-, -, -, -, -, -, -, -, e0, e1⟩ := idx_facts ⟨(i 1).val / 1024, hN⟩
  refine ⟨⟨(i 1).val / 1024, hN⟩, flush0_4 _, ?_⟩
  rw [mem_blk]
  intro a
  match a with
  | ⟨0, _⟩ =>
    show win0_4.index ⟨(i 1).val / 1024, hN⟩ (0 : Fin 2) * 1024 ≤ (i 0).val
      ∧ (i 0).val < win0_4.index ⟨(i 1).val / 1024, hN⟩ (0 : Fin 2) * 1024 + 1024
    omega
  | ⟨1, _⟩ =>
    show win0_4.index ⟨(i 1).val / 1024, hN⟩ (1 : Fin 2) * 1024 ≤ (i 1).val
      ∧ (i 1).val < win0_4.index ⟨(i 1).val / 1024, hN⟩ (1 : Fin 2) * 1024 + 1024
    have e1' : win0_4.index ⟨(i 1).val / 1024, hN⟩ (1 : Fin 2) = (i 1).val / 1024 := e1
    omega

/-- The array after the region is the flat function of the arguments. -/
theorem final (c : Dev nD) : (dats m 0 c).arrAt 4 cfg0.N = flatOf m c :=
  (dats m 0 c).arrAt_eq_of_cover 4 (flatOf m c) (fun t _ => flushed_eq m c t) (fun i => cover i)

/-! ## After the region: the columns regrouped in eights -/

/-- The result of the program: the host's regrouping of the region's array, entry (b, n, h) from column 8·n + h of
    row b, is the specification. -/
theorem tail_eq (c : Dev nD) :
    Pipeline.afterTail₀ cfgs (dats m) 0 (V0 m) [hostOps1] c main_v6
      = Cert.Spec.out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  funext i
  obtain ⟨b, n, h, rfl⟩ : ∃ (b : Fin 1024) (n : Fin 2048) (h : Fin 8), i = ix3 b n h := ⟨i 0, i 1, i 2, eq_ix3 i⟩
  show shapeCast S1024x2048x8 (Pipeline.withArrays spec0 c (V0 m c) (fun w => (dats m 0 c).arrAt w cfg0.N)
      (Proc.devRef .tc main_v5)) shapeCasts_S1024x16384_S1024x2048x8 (ix3 b n h) = _
  have hq : n.val * 8 + h.val < 16384 := by have := n.isLt; have := h.isLt; omega
  have hw : Pipeline.withArrays spec0 c (V0 m c) (fun w => (dats m 0 c).arrAt w cfg0.N) (Proc.devRef .tc main_v5)
      = flatOf m c :=
    (Pipeline.withArrays_arr spec0 launch0.win.arr_inj c _ _ 4).trans (final m c)
  refine (shapeCast_apply _ _ (ix3 b n h) (ix2 b (⟨n.val * 8 + h.val, hq⟩ : Fin 16384)) ?_).trans ?_
  · rw [Shape.rowMajor_val_two, Shape.rowMajor_val_three]
    show b.val * 16384 + (n.val * 8 + h.val) = (b.val * 2048 + n.val) * 8 + h.val
    omega
  · exact (congrFun hw _).trans (Cert.Spec.flatAt_eq_outAt _ _ _ _ b n h _ rfl)

/-! ## The run -/

/-- Every weakly fair execution of the kernel program ends with its result at the specification of the arguments as
    launched, and the arguments unchanged. -/
theorem run : θ_run defs (onTc (τ := τ) (main (F := Ideal))) ⟨m, fun _ => 0, ρ⟩ fun r => ∀ c : Dev nD,
      r.2.mem ((c.tc : Thread nD τ).loc main_v6)
        = Cert.Spec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/- The proof of `Cert.Claim` (proofs.«170823_j12541304504451_1_alg».proof.Defs).

   The kernel program and the reference both compute, from z [1024, 64], x [2048, 64], W [128, 8] and a bias [8], the
   array whose entry (b, n, h) is  max( Σ_k z(b,k)·W(k,h) + Σ_k x(n,k)·W(64+k,h) + bias(h), 0 )  (Proof/Spec.lean).
   The reference adds the three summands as (z-term + x-term) + bias; the kernel as (z-term + bias) + x-term, with the
   last two axes laid out flat (column 8·n + h) and the flat array written in 16 column blocks. On the extended reals
   addition is commutative and associative at every value, so the claim needs no finiteness of the inputs.

   Proof/RefValue.lean reads the reference's run index by index; Proof/KernelPayload.lean reads the value the kernel
   body stores; Proof/KernelValue.lean carries that through the 16 blocks and the host's regrouping to the kernel
   program's result. The three frames are the generated ones (the reference's is its run with the result dropped),
   and the idealization rewrote nothing, so `preserves` is trivial. -/
import proofs.«170823_j12541304504451_1_alg».proof.Defs
import proofs.«170823_j12541304504451_1_alg».proof.Proof.Gen.Kernel
import proofs.«170823_j12541304504451_1_alg».proof.Proof.Gen.Kernel.Skeleton
import proofs.«170823_j12541304504451_1_alg».proof.Proof.Gen.Kernel.Launch
import proofs.«170823_j12541304504451_1_alg».proof.Proof.Gen.Kernel.Points
import proofs.«170823_j12541304504451_1_alg».proof.Proof.Gen.Kernel.Frame
import proofs.«170823_j12541304504451_1_alg».proof.Proof.Gen.KernelIdeal
import proofs.«170823_j12541304504451_1_alg».proof.Proof.Gen.KernelIdeal.Skeleton
import proofs.«170823_j12541304504451_1_alg».proof.Proof.Gen.KernelIdeal.Launch
import proofs.«170823_j12541304504451_1_alg».proof.Proof.Gen.KernelIdeal.Points
import proofs.«170823_j12541304504451_1_alg».proof.Proof.Gen.KernelIdeal.Frame
import proofs.«170823_j12541304504451_1_alg».proof.Proof.Gen.ReferenceIdeal
import proofs.«170823_j12541304504451_1_alg».proof.Proof.Gen.ReferenceIdeal.Run
import proofs.«170823_j12541304504451_1_alg».proof.Proof.Gen.ReferenceIdeal.Read
import proofs.«170823_j12541304504451_1_alg».proof.Proof.Gen.Pre_finite_inputs
import proofs.«170823_j12541304504451_1_alg».proof.Proof.Spec
import proofs.«170823_j12541304504451_1_alg».proof.Proof.RefValue
import proofs.«170823_j12541304504451_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program at the ideal values. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the specification of those arguments in their
    result: the kernel program by its run, the reference by its run read index by index. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _ _).trans ?_
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
